-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S16384x2048 : Shape := ⟨2, ![16384, 2048]⟩
abbrev S1x1 : Shape := ⟨2, ![1, 1]⟩
abbrev S2048x2048 : Shape := ⟨2, ![2048, 2048]⟩
abbrev S1x2048 : Shape := ⟨2, ![1, 2048]⟩
abbrev S2048 : Shape := ⟨1, ![2048]⟩
abbrev S1 : Shape := ⟨1, ![1]⟩
abbrev S_ : Shape := ⟨0, ![]⟩

abbrev nBuf : Space → Nat
  | .hbm => 3
  | .vmem => 4
  | .smem => 0
  | _ => 0

abbrev bufTy : (tb : Table) → Fin (tcTables nBuf tb) → BufTy
  | .hbm, ⟨0, _⟩ => ⟨S16384x2048, .f32⟩
  | .hbm, ⟨1, _⟩ => ⟨S1x1, .f32⟩
  | .hbm, ⟨2, _⟩ => ⟨S_, .f32⟩
  | .local _ .vmem, ⟨0, _⟩ => ⟨S2048x2048, .f32⟩
  | .local _ .vmem, ⟨1, _⟩ => ⟨S2048x2048, .f32⟩
  | .local _ .vmem, ⟨2, _⟩ => ⟨S1x1, .f32⟩
  | .local _ .vmem, ⟨3, _⟩ => ⟨S1x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x2048_S2048x2048_0_0 : ∀ a, (![0, 0] : Fin 2 → Nat) a + S2048x2048.size a ≤ S2048x2048.size a
  h_S2048x2048 : 0 < S2048x2048.numel
  reduces_S2048x2048_S2048 : S2048x2048.Reduces [0] S2048
  shapeCasts_S2048_S1x2048 : S2048.ShapeCasts S1x2048
  reduces_S1x2048_S1 : S1x2048.Reduces [1] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x2048.size a
  hwx0_0 : ∀ i : grid0.Coords, EltTy.bits .f32 = 32 ∨ (Rect.block (s := S16384x2048) S2048x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S16384x2048 : Shape := ⟨2, ![16384, 2048]⟩
abbrev S_ : Shape := ⟨0, ![]⟩
abbrev S2048 : Shape := ⟨1, ![2048]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S_, .f32⟩
  | .hbm, ⟨2, _⟩ => ⟨S_, .f32⟩
  | .hbm, ⟨3, _⟩ => ⟨S16384x2048, .f32⟩
  | .hbm, ⟨4, _⟩ => ⟨S16384x2048, .f32⟩
  | .hbm, ⟨5, _⟩ => ⟨S16384x2048, .f32⟩
  | .hbm, ⟨6, _⟩ => ⟨S_, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S16384x2048 : S_.BroadcastsInDim S16384x2048 (![] : Fin 0 → Fin S16384x2048.rank)
  reducesTo_S16384x2048_S2048_d0 : S16384x2048.ReducesTo [0] S2048
  h_S_ : 0 < S_.numel
  bcast_S_S2048 : S_.BroadcastsInDim S2048 (![] : Fin 0 → Fin S2048.rank)
  reducesTo_S2048_S_d0 : S2048.ReducesTo [0] S_

variable [Facts₀]

class Facts : Prop extends Facts₀ where

variable [Facts]
-- ==== Proof.Pieces.lean ====
/-
  What one run of the kernel body leaves behind, as values, in each of its three control cases (any float
  instance). The body keeps a [1, 2048] row of running column sums in a scratch buffer:

  * first grid point: the row is reset to zeros, then updated from the zeros it just stored
    (`scratch_first`: the update `k0_pay2` of the input block and the zero row `k0_pay1`);
  * a middle grid point: the row is updated from what the point before left (`scratch_mid`);
  * last grid point: the row is updated likewise (`scratch_last`), and the [1, 1] output block is the final
    expression `k0_pay3` of the UPDATED row, which the body reads back after storing it (`out_last`).

  Each store covers its whole buffer, so what a buffer holds afterwards is the last store's value, and a load after
  a store in the same run reads the stored value back.
-/
import proofs.«176509_j25975962206274_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every load and store of the body starts at the origin of its buffer. -/
theorem hz : (![0, 0] : Fin 2 → Nat) = fun _ => 0 := funext fun a => by fin_cases a <;> rfl

/-- First point: the scratch row ends at the update of the input block over the zero row just stored. -/
theorem scratch_first (c : Dev nD) (i : grid0.Coords) (a1 : Memref sig .tc .vmem S2048x2048 .f32) (h1 : a1.IsWhole)
    (a2 : Memref sig .tc .vmem S1x1 .f32) (h2 : a2.IsWhole) (a3 : Memref sig .tc .vmem S1x2048 .f32) (h3 : a3.IsWhole)
    (hc0 : cond0_0 i) (hc1 : ¬cond0_1 i) (x : Vec F S2048x2048 .f32) :
    sout0_A_0 c i a1 h1 a2 h2 a3 h3 hc0 hc1 x = k0_pay2 x k0_pay1 := by
  unfold sout0_A_0
  rw [View.read_writes_eq_canon _ _ _ (scover0_A_0 c i a1 h1 a2 h2 a3 h3 hc0 hc1 x)]
  unfold kernelRun0_A
  dsimp only
  sl_unfold_words
  rw [View.canon_cons_unit_zero (S := S1x2048) hz, View.readCov_unit_zero (S := S1x2048) _ hz]
  simp only [View.readAt_eq_ld, h1.read_unread, View.ld_unit_zero (S := S2048x2048) hz]

/-- A middle point: the scratch row ends at the update of the input block over the row the point before left. -/
theorem scratch_mid (c : Dev nD) (i : grid0.Coords) (a1 : Memref sig .tc .vmem S2048x2048 .f32) (h1 : a1.IsWhole)
    (a2 : Memref sig .tc .vmem S1x1 .f32) (h2 : a2.IsWhole) (a3 : Memref sig .tc .vmem S1x2048 .f32) (h3 : a3.IsWhole)
    (hc0 : ¬cond0_0 i) (hc1 : ¬cond0_1 i) (x : Vec F S2048x2048 .f32) (xs : Vec F S1x2048 .f32) :
    sout0_B_0 c i a1 h1 a2 h2 a3 h3 hc0 hc1 x xs = k0_pay2 x xs := by
  unfold sout0_B_0
  rw [View.read_writes_eq_canon _ _ _ (scover0_B_0 c i a1 h1 a2 h2 a3 h3 hc0 hc1 x xs)]
  unfold kernelRun0_B
  dsimp only
  sl_unfold_words
  rw [View.canon_unit_zero hz]
  simp only [View.readAt_eq_ld, h1.read_unread, h3.read_unread, View.ld_unit_zero (S := S2048x2048) hz,
    View.ld_unit_zero (S := S1x2048) hz]

/-- Last point: the scratch row is updated as at a middle point. -/
theorem scratch_last (c : Dev nD) (i : grid0.Coords) (a1 : Memref sig .tc .vmem S2048x2048 .f32) (h1 : a1.IsWhole)
    (a2 : Memref sig .tc .vmem S1x1 .f32) (h2 : a2.IsWhole) (a3 : Memref sig .tc .vmem S1x2048 .f32) (h3 : a3.IsWhole)
    (hc0 : ¬cond0_0 i) (hc1 : cond0_1 i) (x : Vec F S2048x2048 .f32) (xs : Vec F S1x2048 .f32) :
    sout0_C_0 c i a1 h1 a2 h2 a3 h3 hc0 hc1 x xs = k0_pay2 x xs := by
  unfold sout0_C_0
  rw [View.read_writes_eq_canon _ _ _ (scover0_C_0 c i a1 h1 a2 h2 a3 h3 hc0 hc1 x xs)]
  unfold kernelRun0_C
  dsimp only
  sl_unfold_words
  rw [View.canon_unit_zero hz]
  simp only [View.readAt_eq_ld, h1.read_unread, h3.read_unread, View.ld_unit_zero (S := S2048x2048) hz,
    View.ld_unit_zero (S := S1x2048) hz]

/-- Last point: the output block is the final expression of the updated scratch row. -/
theorem out_last (c : Dev nD) (i : grid0.Coords) (a1 : Memref sig .tc .vmem S2048x2048 .f32) (h1 : a1.IsWhole)
    (a2 : Memref sig .tc .vmem S1x1 .f32) (h2 : a2.IsWhole) (a3 : Memref sig .tc .vmem S1x2048 .f32) (h3 : a3.IsWhole)
    (hc0 : ¬cond0_0 i) (hc1 : cond0_1 i) (x : Vec F S2048x2048 .f32) (xs : Vec F S1x2048 .f32) :
    out0_C_1 c i a1 h1 a2 h2 a3 h3 hc0 hc1 x xs = k0_pay3 (k0_pay2 x xs) := by
  unfold out0_C_1
  rw [View.read_writes_eq_canon _ _ _ (cover0_C_1 c i a1 h1 a2 h2 a3 h3 hc0 hc1 x xs)]
  unfold kernelRun0_C
  dsimp only
  sl_unfold_words
  rw [View.canon_unit_zero hz]
  simp only [View.readCov_unit_zero (S := S1x2048) _ hz, View.readAt_eq_ld, h1.read_unread, h3.read_unread,
    View.ld_unit_zero (S := S2048x2048) hz, View.ld_unit_zero (S := S1x2048) hz]

end Cert.KernelIdeal.Pieces

end
-- ==== Proof.LibColumnSums.lean ====
/-
  Column sums of squares, taken in row blocks and rescaled: general facts, at the ideal instance where floats are
  extended reals.

  * `sum_idx1`: a sum over the index set of a rank-1 shape is the sum over its one coordinate.
  * `multiReduction_add_col`: for a vector `x` of shape [R, D], the kernel's reduction with an add body along the
    FIRST axis is, at column `k`, the sum of the column's entries `x (r, k)`, `r : Fin R`.
  * `sum_blocks`: a sum over `N = B·R` rows is the sum over `B` blocks of the sums over the `R` rows of each block,
    row `R·t + r` being row `r` of block `t`.
  * `mul_self_nonneg`: a square of an extended real is nonnegative (also at the two infinities).
  * `sum_mul_of_nonneg`: a finite sum of NONNEGATIVE extended reals times `c` is the sum of the products. In the
    extended reals `(a + b)·c = a·c + b·c` fails in general (`a = ⊤`, `b = ⊥`), but it holds for `0 ≤ a, b`.
  * `sum_sq_scaled`: `∑ (xᵢ·c)·(xᵢ·c) = (∑ xᵢ·xᵢ)·(c·c)` for ANY extended reals `xᵢ` and `c`: scaling every entry by
    `c` before squaring and summing is scaling the sum of squares by `c²`.
-/
import Idealize.ShloMosaic.PureOps.Ideal.Laws
import Idealize.ShloMosaic.Lib.ValueIdx
import Mathlib.Data.EReal.Operations
import Mathlib.Logic.Equiv.Fin.Basic
import Mathlib.Algebra.BigOperators.Fin
import Mathlib.Data.Fintype.BigOperators

noncomputable section

open scoped BigOperators

namespace Cert.ColumnSums

open Idealize.ShloMosaic Idealize.ShloMosaic.ValueIdx

/-! ## Sums over a rank-1 index set -/

/-- A rank-1 index set is its one coordinate range. -/
def idxEquiv1 {n : Nat} : (⟨1, ![n]⟩ : Shape).Idx ≃ Fin n where
  toFun i := i 0
  invFun k := ix1 k
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-! ## A reduction along the first axis, read at a column -/

variable {φ : FTy} {R D : Nat}

/-- Column `k` with row `r` put back on the reduced first axis is the index (r, k). -/
theorem lift_col (h : (⟨2, ![R, D]⟩ : Shape).Reduces [0] (⟨1, ![D]⟩ : Shape)) (k : Fin D)
    (r : Fin ((⟨2, ![R, D]⟩ : Shape).size 0)) : h.lift (ix1 k) r = ix2 (⟨r.val, r.isLt⟩ : Fin R) k := by
  funext c; apply Fin.ext
  fin_cases c <;> rfl

/-- A reduction with an add body over the rows, at column `k`: the sum of that column's entries. -/
theorem multiReduction_add_col (x : FVec Ideal ⟨2, ![R, D]⟩ φ) (acc : BitVec φ.bits)
    (h : (⟨2, ![R, D]⟩ : Shape).Reduces [0] (⟨1, ![D]⟩ : Shape)) (hφ : FKind.Formats φ)
    (hacc : acc = FKind.add.neutral φ hφ) (k : Fin D) :
    multiReduction .add [0] ⟨1, ![D]⟩ x acc h hφ hacc (ix1 k) = ∑ r : Fin R, x (ix2 r k) := by
  rw [Ideal.multiReduction_add_single]
  exact Finset.sum_congr rfl fun r _ => congrArg x (lift_col h k r)

/-! ## A sum over rows taken block by block -/

/-- Row `r` of block `t` is a row of the whole: `R·t + r < B·R`. -/
theorem block_row_lt {B R : Nat} (t : Fin B) (r : Fin R) : R * t.val + r.val < B * R :=
  calc R * t.val + r.val < R * t.val + R := Nat.add_lt_add_left r.isLt _
    _ = R * (t.val + 1) := (Nat.mul_succ R t.val).symm
    _ ≤ R * B := Nat.mul_le_mul_left R t.isLt
    _ = B * R := Nat.mul_comm R B

/-- `N = B·R` rows as `B` blocks of `R` rows: the sum over the rows is the sum, over the blocks, of each
    block's sum; row `R·t + r` is row `r` of block `t`. -/
theorem sum_blocks {M : Type*} [AddCommMonoid M] (B R N : Nat) (hN : N = B * R) (f : Fin N → M) :
    ∑ i, f i = ∑ t : Fin B, ∑ r : Fin R, f ⟨R * t.val + r.val, hN ▸ block_row_lt t r⟩ := by
  subst hN
  rw [← Equiv.sum_comp finProdFinEquiv f, Fintype.sum_prod_type]
  refine Finset.sum_congr rfl fun t _ => Finset.sum_congr rfl fun r _ => congrArg f (Fin.ext ?_)
  show r.val + R * t.val = R * t.val + r.val
  exact Nat.add_comm _ _

/-! ## Nonnegative extended reals: distributivity over a finite sum -/

/-- A square is nonnegative, at the infinities too. -/
theorem mul_self_nonneg (x : EReal) : 0 ≤ x * x := by
  rcases le_total 0 x with h | h
  · exact EReal.mul_nonneg_iff.mpr (Or.inl ⟨h, h⟩)
  · exact EReal.mul_nonneg_iff.mpr (Or.inr ⟨h, h⟩)

/-- A finite sum of nonnegative extended reals, times `c`, is the sum of the products. -/
theorem sum_mul_of_nonneg {ι : Type*} (s : Finset ι) (a : ι → EReal) (ha : ∀ i ∈ s, 0 ≤ a i) (c : EReal) :
    ∑ i ∈ s, a i * c = (∑ i ∈ s, a i) * c := by
  classical
  induction s using Finset.induction_on with
  | empty => rw [Finset.sum_empty, Finset.sum_empty, zero_mul]
  | insert j s hj ih =>
    rw [Finset.sum_insert hj, Finset.sum_insert hj,
      ih (fun i hi => ha i (Finset.mem_insert_of_mem hi)),
      EReal.right_distrib_of_nonneg (ha j (Finset.mem_insert_self j s))
        (Finset.sum_nonneg fun i hi => ha i (Finset.mem_insert_of_mem hi))]

/-- Scaling every entry by `c` before squaring and summing is scaling the sum of squares by `c·c`. -/
theorem sum_sq_scaled {ι : Type*} [Fintype ι] (x : ι → EReal) (c : EReal) :
    ∑ i, (x i * c) * (x i * c) = (∑ i, x i * x i) * (c * c) := by
  rw [← sum_mul_of_nonneg Finset.univ (fun i => x i * x i) (fun i _ => mul_self_nonneg (x i)) (c * c)]
  exact Finset.sum_congr rfl fun i _ => mul_mul_mul_comm (x i) c (x i) c

end Cert.ColumnSums

end
-- ==== Proof.Consts.lean ====
/-
  The float constants the two programs spell, as the extended reals their bit patterns denote when floats are read
  exactly. The reference divides every entry by the square root of the row count, sqrt 16384 = 128; the kernel
  multiplies the column sums of squares by the reciprocal of the row count, 1/16384 = 2^(-14), an exact binary
  fraction. So both constants are rationals and (1/128)^2 = 1/16384 joins them.
-/
import Idealize.ShloMosaic.PureOps.Ideal

noncomputable section

namespace Cert.Consts

open Idealize.ShloMosaic

/-- The pattern of `16384.0` (the reference's row count) denotes the real 16384. -/
theorem ofBits_16384 : Ideal.ofBits .f32 0x46800000#32 = ((16384 : ℝ) : EReal) := by
  simp [Ideal.ofBits, Ideal.ieee, -EReal.coe_mul]; norm_num

/-- The pattern of `6.10351563E-5` (the kernel's reciprocal row count) denotes the real 1/16384 exactly:
    it is the power of two 2^(-14). -/
theorem ofBits_inv16384 : Ideal.ofBits .f32 0x38800000#32 = ((1 / 16384 : ℝ) : EReal) := by
  simp [Ideal.ofBits, Ideal.ieee, -EReal.coe_mul]; norm_num

/-- The exact square root of 16384 is 128. -/
theorem sqrt_16384 : Ideal.sqrt ((16384 : ℝ) : EReal) = ((128 : ℝ) : EReal) := by
  rw [Ideal.sqrt_coe, if_neg (by norm_num)]
  congr 1
  rw [show (16384 : ℝ) = 128 ^ 2 by norm_num]
  exact Real.sqrt_sq (by norm_num)

/-- Dividing by 128 is multiplying by 1/128, on every extended real. -/
theorem div_128 (x : EReal) : Ideal.div x ((128 : ℝ) : EReal) = x * ((1 / 128 : ℝ) : EReal) :=
  Ideal.div_coe (by norm_num) x

/-- The square of 1/128 is 1/16384. -/
theorem inv128_sq : ((1 / 128 : ℝ) : EReal) * ((1 / 128 : ℝ) : EReal) = ((1 / 16384 : ℝ) : EReal) := by
  rw [← EReal.coe_mul]; congr 1; norm_num

end Cert.Consts

end
-- ==== Proof.Spec.lean ====
/-
  The specification both programs are proved against, over the argument array `Y` of shape [16384, 2048] read as
  extended reals:

      loss Y = ∑ₖ | 1 − (∑ᵢ Y(i,k)²) · (1/16384) |      (k over the 2048 columns, i over the 16384 rows).

  The kernel visits the rows in 8 blocks of 2048 and carries the running column sums of squares from block to
  block: `blkSq Y t k` is block `t`'s contribution to column `k` (rows 2048·t … 2048·t + 2047), `accSq Y n k` the
  running sum after blocks 0 … n. After the last block the running sum is the whole column's sum of squares
  (`accSq_last`): a sum over 16384 rows split into 8 consecutive blocks, which only regroups an addition.
-/
import proofs.«176509_j25975962206274_1_alg».proof.Proof.LibColumnSums
import proofs.«176509_j25975962206274_1_alg».proof.Proof.Consts

noncomputable section

open scoped BigOperators

namespace Cert.Spec

open Idealize.ShloMosaic Idealize.ShloMosaic.ValueIdx Cert.ColumnSums

/-- The argument array, as extended reals. -/
abbrev Arr : Type := (⟨2, ![16384, 2048]⟩ : Shape).Idx → EReal

/-- Row `r` of block `t`, as a row of the whole array (for `t < 8` it is row `2048·t + r`). -/
def row (t : ℕ) (r : Fin 2048) : Fin 16384 := ⟨(2048 * t + r.val) % 16384, Nat.mod_lt _ (by norm_num)⟩

theorem row_val (t : ℕ) (ht : t < 8) (r : Fin 2048) : (row t r).val = 2048 * t + r.val :=
  Nat.mod_eq_of_lt (by have := r.isLt; omega)

/-- Block `t`'s contribution to column `k`'s sum of squares. -/
def blkSq (Y : Arr) (t : ℕ) (k : Fin 2048) : EReal := ∑ r : Fin 2048, Y (ix2 (row t r) k) * Y (ix2 (row t r) k)

/-- The running column sum of squares after blocks `0 … n`. -/
def accSq (Y : Arr) (n : ℕ) (k : Fin 2048) : EReal := ∑ t ∈ Finset.range (n + 1), blkSq Y t k

/-- Column `k`'s sum of squares over all 16384 rows. -/
def colSq (Y : Arr) (k : Fin 2048) : EReal := ∑ i : Fin 16384, Y (ix2 i k) * Y (ix2 i k)

theorem accSq_zero (Y : Arr) (k : Fin 2048) : accSq Y 0 k = blkSq Y 0 k := by
  unfold accSq; rw [Finset.sum_range_one]

theorem accSq_succ (Y : Arr) (n : ℕ) (k : Fin 2048) : accSq Y (n + 1) k = accSq Y n k + blkSq Y (n + 1) k := by
  unfold accSq; rw [Finset.sum_range_succ]

/-- After the eighth block the running sum is the whole column's. -/
theorem accSq_last (Y : Arr) (k : Fin 2048) : accSq Y 7 k = colSq Y k := by
  unfold accSq colSq
  rw [Finset.sum_range (fun t => blkSq Y t k),
    sum_blocks 8 2048 16384 (by norm_num) (fun i => Y (ix2 i k) * Y (ix2 i k))]
  refine Finset.sum_congr rfl fun t _ => Finset.sum_congr rfl fun r _ => ?_
  have e : row t.val r = ⟨2048 * t.val + r.val, by have := t.isLt; have := r.isLt; omega⟩ :=
    Fin.ext (row_val t.val t.isLt r)
  rw [e]

/-- The float pattern of `1.0`, which both programs spell and neither needs evaluated. -/
abbrev one : EReal := Ideal.ofBits .f32 0x3F800000#32

/-- The distance of `x` from one, as both programs take it: `|1 − x|` is `max (1 − x) (−(1 − x))`. -/
def dist1 (x : EReal) : EReal := max (one - x) (-(one - x))

/-- The loss: over the columns, the distances from one of the mean squares. -/
def loss (Y : Arr) : EReal := ∑ k : Fin 2048, dist1 (colSq Y k * ((1 / 16384 : ℝ) : EReal))

end Cert.Spec

end
-- ==== Proof.LibRowReduce.lean ====
/-
  Row reductions of a rank-2 vector along its second axis, read at a row: the general facts a row-wise
  softmax, log-softmax or normalisation needs once both programs are down to one row.

  For a vector `x` of shape [R, D] and a row `r`:
  * the kernel's lane reduction with a maximum body is the fold of `max`, from the accumulator's value, over the
    row's entries `x (r, k)`, `k : Fin D` (`multiReduction_maximumf_row`);
  * the kernel's lane reduction with an add body is the sum of the row's entries (`multiReduction_add_row`);
  * the host's reduce with a maximum body is the same fold from the initial value (`hostReduce_maximumf_row`),
    and the host's sum is the initial value plus the sum of the row's entries (`hostReduceAdd_row`);
  * the f32 pattern of minus infinity is the bottom extended real (`ofBits_negInf_f32`), which `max` absorbs
    (`max_negInf_left`), so a maximum taken from minus infinity may be taken from it twice
    (`max_negInf_fold`).
  All at the ideal instance, where floats are extended reals.
-/
import Idealize.ShloMosaic.PureOps.Ideal.Laws
import Idealize.ShloMosaic.Lib.ValueIdx

noncomputable section

open scoped BigOperators

namespace Idealize.ShloMosaic.RowReduce

open Idealize.ShloMosaic Idealize.ShloMosaic.ValueIdx

variable {φ : FTy} {R D : Nat}

/-- Row `r` with column `k` put back on the reduced axis is the index (r, k). -/
theorem lift_row (h : (⟨2, ![R, D]⟩ : Shape).Reduces [1] (⟨1, ![R]⟩ : Shape)) (r : Fin R)
    (k : Fin ((⟨2, ![R, D]⟩ : Shape).size 1)) : h.lift (ix1 r) k = ix2 r (⟨k.val, k.isLt⟩ : Fin D) := by
  funext c; apply Fin.ext
  fin_cases c <;> rfl

/-- A lane reduction with a maximum body over the columns, at row `r`: the fold of `max` from the accumulator's
    value over that row's entries. -/
theorem multiReduction_maximumf_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.maximumf.neutral φ hφ) (r : Fin R) :
    multiReduction .maximumf [1] ⟨1, ![R]⟩ x acc h hφ hacc (ix1 r)
      = (Finset.univ : Finset (Fin D)).fold max (Ideal.ofBits φ acc) (fun k => x (ix2 r k)) := by
  rw [Ideal.multiReduction_maximumf_single]
  have hf : (x ∘ h.lift (ix1 r)) = fun k : Fin D => x (ix2 r k) := funext fun k => congrArg x (lift_row h r k)
  exact congrArg (fun f => Finset.fold max (Ideal.ofBits φ acc) f (Finset.univ : Finset (Fin D))) hf

/-- A lane reduction with an add body over the columns, at row `r`: the sum of that row's entries. -/
theorem multiReduction_add_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.add.neutral φ hφ) (r : Fin R) :
    multiReduction .add [1] ⟨1, ![R]⟩ x acc h hφ hacc (ix1 r) = ∑ k : Fin D, x (ix2 r k) := by
  rw [Ideal.multiReduction_add_single]
  exact Finset.sum_congr rfl fun k _ => congrArg x (lift_row h r k)

/-- The host's reduce with a maximum body over the columns, at row `r`: the fold of `max` from the initial
    value over that row's entries. -/
theorem hostReduce_maximumf_row {u : Shape} (x : FVec Ideal ⟨2, ![R, D]⟩ φ) (init : u.Idx → Ideal φ)
    (h' : (⟨2, ![R, D]⟩ : Shape).ReducesTo [1] (⟨1, ![R]⟩ : Shape))
    (h : (⟨2, ![R, D]⟩ : Shape).Reduces [1] (⟨1, ![R]⟩ : Shape)) (hu : 0 < u.numel) (r : Fin R) :
    Host.reduce FloatOps.maximumf x init h' hu (ix1 r)
      = (Finset.univ : Finset (Fin D)).fold max (init (Shape.Idx.first hu)) (fun k => x (ix2 r k)) := by
  rw [Host.reduce_eq_fold_single FloatOps.maximumf x init h' h hu]
  have hf : (x ∘ h.lift (ix1 r)) = fun k : Fin D => x (ix2 r k) := funext fun k => congrArg x (lift_row h r k)
  exact congrArg (fun f => Finset.fold max (init (Shape.Idx.first hu)) f (Finset.univ : Finset (Fin D))) hf

/-- The host's sum over the columns, at row `r`: the initial value plus the sum of that row's entries. -/
theorem hostReduceAdd_row (x : (⟨2, ![R, D]⟩ : Shape).Idx → EReal) (init : EReal)
    (h' : (⟨2, ![R, D]⟩ : Shape).ReducesTo [1] (⟨1, ![R]⟩ : Shape))
    (h : (⟨2, ![R, D]⟩ : Shape).Reduces [1] (⟨1, ![R]⟩ : Shape)) (r : Fin R) :
    Ideal.hostReduceAdd h' x init (ix1 r) = init + ∑ k : Fin D, x (ix2 r k) := by
  rw [Ideal.hostReduceAdd_single h' h]
  exact congrArg (init + ·) (Finset.sum_congr rfl fun k _ => congrArg x (lift_row h r k))

/-- The f32 pattern of minus infinity denotes the bottom extended real. -/
theorem ofBits_negInf_f32 : Ideal.ofBits .f32 0xFF800000#32 = (⊥ : EReal) := by
  simp [Ideal.ofBits, Ideal.ieee]

/-- Minus infinity is neutral for `max`. -/
theorem max_negInf_left (y : EReal) : max (Ideal.ofBits .f32 0xFF800000#32) y = y := by
  rw [ofBits_negInf_f32]; exact max_eq_right bot_le

/-- A maximum taken from minus infinity, joined once more with minus infinity, is itself. -/
theorem max_negInf_fold (f : Fin D → EReal) :
    max (Ideal.ofBits .f32 0xFF800000#32) ((Finset.univ : Finset (Fin D)).fold max (Ideal.ofBits .f32 0xFF800000#32) f)
      = (Finset.univ : Finset (Fin D)).fold max (Ideal.ofBits .f32 0xFF800000#32) f :=
  max_negInf_left _

end Idealize.ShloMosaic.RowReduce

end
-- ==== Proof.Payload.lean ====
/-
  The body's three stored values read at an index, floats read exactly (extended reals):

  * the zero row is 0 at every column;
  * the updated row at column `k` is the carried row's entry plus the sum over the block's 2048 rows of the
    squares of column `k` — a square, a reduction along the rows, a cast of [2048] to [1, 2048], an addition;
  * the output's one entry is the sum over the 2048 columns of the distance from one of the row's entry times
    1/16384 — a product with the constant row, a subtraction from the row of ones, an absolute value, a reduction
    along the columns, a cast of [1] to [1, 1].
-/
import proofs.«176509_j25975962206274_1_alg».proof.Proof.Gen.KernelIdeal.Skeleton
import proofs.«176509_j25975962206274_1_alg».proof.Proof.Spec
import proofs.«176509_j25975962206274_1_alg».proof.Proof.LibRowReduce
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx
open Cert.ColumnSums

/-- The zero row the first point stores is 0 at every column. -/
theorem zero_row_at (u : Fin 1) (k : Fin 2048) : k0_pay1 (F := Ideal) (ix2 u k) = 0 := by
  unfold k0_pay1
  refine (congrFun (shapeCast_self _ _) (ix2 u k)).trans ?_
  exact Ideal.ofBits_zero_f32

/-- The updated row at column `k`: the carried entry plus the block's column sum of squares. -/
theorem update_at (x : Vec Ideal S2048x2048 .f32) (acc : Vec Ideal S1x2048 .f32) (u : Fin 1) (k : Fin 2048) :
    k0_pay2 (F := Ideal) x acc (ix2 u k) = acc (ix2 u k) + ∑ r : Fin 2048, x (ix2 r k) * x (ix2 r k) := by
  unfold k0_pay2
  refine (congrFun (shapeCast_self _ _) (ix2 u k)).trans ?_
  show acc (ix2 u k) + _ = _
  refine congrArg (acc (ix2 u k) + ·) ?_
  refine (shapeCast_a_1a_apply _ _ u k).trans ?_
  exact multiReduction_add_col (mulf x x) _ _ _ _ k

/-- The output's entry: over the columns, the distances from one of the row's entries times 1/16384. -/
theorem final_at (acc : Vec Ideal S1x2048 .f32) (u u' : Fin 1) :
    k0_pay3 (F := Ideal) acc (ix2 u u')
      = ∑ k : Fin 2048, Cert.Spec.dist1 (acc (ix2 (0 : Fin 1) k) * ((1 / 16384 : ℝ) : EReal)) := by
  unfold k0_pay3
  refine (shapeCast_a_1a_apply _ _ u u').trans ?_
  refine (Idealize.ShloMosaic.RowReduce.multiReduction_add_row (R := 1) (D := 2048) _ _ _ _ _ u').trans ?_
  obtain rfl : u' = 0 := Subsingleton.elim _ _
  refine Finset.sum_congr rfl fun k _ => ?_
  show max (Ideal.ofBits .f32 0x3F800000#32 - acc (ix2 (0 : Fin 1) k) * Ideal.ofBits .f32 0x38800000#32)
      (-(Ideal.ofBits .f32 0x3F800000#32 - acc (ix2 (0 : Fin 1) k) * Ideal.ofBits .f32 0x38800000#32)) = _
  rw [Cert.Consts.ofBits_inv16384]
  rfl

end Cert.KernelIdeal.Payload

end
-- ==== Proof.Invariant.lean ====
/-
  What the kernel carries from grid point to grid point, floats read exactly. The grid has 8 points; point `t`
  fetches rows 2048·t … 2048·t + 2047 of the argument array `Y` (all 2048 columns). By induction on the point, the
  scratch row after point `n` holds, at column `k`, the running sum `accSq Y n k` of the squares of column `k` over
  the rows of blocks 0 … n: the first point stores a zero row and adds block 0's column sums to it, every later
  point adds its block's column sums to what the point before left. At the last point the output block is computed
  from the row just updated, so it holds `∑ₖ |1 − accSq Y 7 k · (1/16384)|`, and `accSq Y 7 k` is the whole column's
  sum of squares: the output block is the loss of `Y`.
-/
import proofs.«176509_j25975962206274_1_alg».proof.Proof.Pieces
import proofs.«176509_j25975962206274_1_alg».proof.Proof.Payload

noncomputable section

open scoped BigOperators

open Idealize.ShloMosaic Idealize.ShloMosaic.TcCoe Idealize.SL.Sem

namespace Cert.KernelIdeal.Carried

open Cert.KernelIdeal Cert.KernelIdeal.Gen Idealize.ShloMosaic.ValueIdx

variable (m : (ℓ : Loc nD τ sig) → Buf (Elt Ideal) ℓ)

/-- The argument array as the region finds it. -/
abbrev yarr (c : Dev nD) : Vec Ideal S16384x2048 .f32 := V m c main_arg0

/-- The input block the body reads at point `t`. -/
abbrev xblk (c : Dev nD) (t : Fin cfg0.N) : Vec Ideal S2048x2048 .f32 := iblk m c 0 t

/-- Point `t`'s input block is block (t, 0) of the array. -/
theorem idx_facts : ∀ t : Fin cfg0.N, win0_0.index t 0 = t.val ∧ win0_0.index t 1 = 0 :=
  (by decide +kernel : ∀ t : Fin grid0.N, win0_0.index t 0 = t.val ∧ win0_0.index t 1 = 0)

/-- Entry (r, k) of point `t`'s block is entry (2048·t + r, k) of the array. -/
theorem xblk_at (c : Dev nD) (t : Fin cfg0.N) (r k : Fin 2048) :
    xblk m c t (ix2 r k) = yarr m c (ix2 (Cert.Spec.row t.val r) k) := by
  have hi := idx_facts t
  have ht : t.val < 8 := lt_of_lt_of_eq t.isLt (show cfg0.N = 8 from N_0)
  unfold xblk iblk
  rw [View.read_apply]
  show V m c main_arg0 _ = V m c main_arg0 _
  congr 1
  funext a
  apply Fin.ext
  match a with
  | ⟨0, _⟩ =>
    show win0_0.index t 0 * 2048 + 1 * r.val = (Cert.Spec.row t.val r).val
    rw [hi.1, Cert.Spec.row_val t.val ht r]; omega
  | ⟨1, _⟩ =>
    show win0_0.index t 1 * 2048 + 1 * k.val = k.val
    rw [hi.2]; omega

/-- The column sums of squares of point `t`'s block are block `t`'s contribution. -/
theorem blk_sum (c : Dev nD) (t : Fin cfg0.N) (k : Fin 2048) :
    ∑ r : Fin 2048, xblk m c t (ix2 r k) * xblk m c t (ix2 r k) = Cert.Spec.blkSq (yarr m c) t.val k := by
  unfold Cert.Spec.blkSq
  exact Finset.sum_congr rfl fun r _ => by rw [xblk_at]

/-- The row of running sums after blocks 0 … n. -/
def accRow (c : Dev nD) (n : ℕ) : Vec Ideal S1x2048 .f32 := fun j => Cert.Spec.accSq (yarr m c) n (j 1)

/-- The first point's update of the zero row is the running row after block 0. -/
theorem update_first (c : Dev nD) (t : Fin cfg0.N) (ht : t.val = 0) :
    k0_pay2 (F := Ideal) (xblk m c t) (k0_pay1 (F := Ideal)) = accRow m c 0 := by
  funext j
  obtain ⟨u, k, rfl⟩ : ∃ (u : Fin 1) (k : Fin 2048), j = ix2 u k := ⟨j 0, j 1, eq_ix2 j⟩
  rw [Cert.KernelIdeal.Payload.update_at, Cert.KernelIdeal.Payload.zero_row_at, zero_add, blk_sum, ht]
  exact (Cert.Spec.accSq_zero _ _).symm

/-- A later point's update of the running row after block n is the running row after block n + 1. -/
theorem update_next (c : Dev nD) (t : Fin cfg0.N) (n : ℕ) (ht : t.val = n + 1) :
    k0_pay2 (F := Ideal) (xblk m c t) (accRow m c n) = accRow m c (n + 1) := by
  funext j
  obtain ⟨u, k, rfl⟩ : ∃ (u : Fin 1) (k : Fin 2048), j = ix2 u k := ⟨j 0, j 1, eq_ix2 j⟩
  rw [Cert.KernelIdeal.Payload.update_at, blk_sum, ht]
  exact (Cert.Spec.accSq_succ _ _ _).symm

/-- THE INVARIANT: after point `n` the scratch row is the running row after block `n`. -/
theorem scratch_eq (c : Dev nD) : ∀ (n : ℕ) (hn : n < cfg0.N), (outsAt0 (F := Ideal) m c n hn).2 = accRow m c n
  | 0, hn => by
    rw [outsAt0_A m c ⟨0, hn⟩ rfl (by show ¬ 0 % 8 = 7; omega)]
    dsimp only
    refine (Cert.KernelIdeal.Pieces.scratch_first (F := Ideal) c _ _ _ _ _ _ _ _ _ (xblk m c ⟨0, hn⟩)).trans ?_
    exact update_first m c ⟨0, hn⟩ rfl
  | n + 1, hn => by
    have hN : cfg0.N = 8 := N_0
    have h0 : ¬(⟨n + 1, hn⟩ : Fin cfg0.N).val % 8 = 0 := by dsimp only; omega
    have ih := scratch_eq c n (Nat.lt_of_succ_lt hn)
    by_cases h1 : (⟨n + 1, hn⟩ : Fin cfg0.N).val % 8 = 7
    · rw [outsAt0_C m c ⟨n + 1, hn⟩ h0 h1]
      dsimp only
      refine (Cert.KernelIdeal.Pieces.scratch_last (F := Ideal) c _ _ _ _ _ _ _ _ _ (xblk m c ⟨n + 1, hn⟩)
        (outsAt0 m c n (Nat.lt_of_succ_lt hn)).2).trans ?_
      rw [ih]
      exact update_next m c ⟨n + 1, hn⟩ n rfl
    · rw [outsAt0_B m c ⟨n + 1, hn⟩ h0 h1]
      dsimp only
      refine (Cert.KernelIdeal.Pieces.scratch_mid (F := Ideal) c _ _ _ _ _ _ _ _ _ (xblk m c ⟨n + 1, hn⟩)
        (outsAt0 m c n (Nat.lt_of_succ_lt hn)).2).trans ?_
      rw [ih]
      exact update_next m c ⟨n + 1, hn⟩ n rfl

/-- After the last point the output block holds the loss of the argument array. -/
theorem out_eq (c : Dev nD) (h7 : 7 < cfg0.N) :
    (outsAt0 (F := Ideal) m c 7 h7).1 = fun _ => Cert.Spec.loss (yarr m c) := by
  have h0 : ¬(⟨7, h7⟩ : Fin cfg0.N).val % 8 = 0 := by show ¬ 7 % 8 = 0; omega
  have h1 : (⟨7, h7⟩ : Fin cfg0.N).val % 8 = 7 := rfl
  have h6 : 6 < cfg0.N := Nat.lt_of_succ_lt h7
  rw [outsAt0_C m c ⟨7, h7⟩ h0 h1]
  dsimp only
  refine (Cert.KernelIdeal.Pieces.out_last (F := Ideal) c _ _ _ _ _ _ _ _ _ (xblk m c ⟨7, h7⟩)
    (outsAt0 m c 6 h6).2).trans ?_
  rw [scratch_eq m c 6 h6, update_next m c ⟨7, h7⟩ 6 rfl]
  funext j
  obtain ⟨u, u', rfl⟩ : ∃ (u u' : Fin 1), j = ix2 u u' := ⟨j 0, j 1, eq_ix2 j⟩
  rw [Cert.KernelIdeal.Payload.final_at]
  unfold Cert.Spec.loss
  refine Finset.sum_congr rfl fun k _ => ?_
  show Cert.Spec.dist1 (Cert.Spec.accSq (yarr m c) 7 k * _) = _
  rw [Cert.Spec.accSq_last]

end Cert.KernelIdeal.Carried

end
-- ==== Proof.KernelValue.lean ====
/-
  The idealized kernel's run, read as a value. The output window is one [1, 1] block at block index (0, 0) for every
  grid point; the body stores into it only at the last point, and the pipeline writes it back once, after that
  point. What is written back is the loss of the argument array (the carried running sums, completed at the last
  point), the block is the whole [1, 1] array, so the region's result array ends holding the loss. The one host
  line after the region reshapes [1, 1] to a scalar, which keeps the one entry.
-/
import proofs.«176509_j25975962206274_1_alg».proof.Proof.Invariant
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.KernelIdeal.KernelValue

open Cert.KernelIdeal Cert.KernelIdeal.Gen Idealize.ShloMosaic.ValueIdx Cert.KernelIdeal.Carried

variable (m : (ℓ : Loc nD τ sig) → Buf (Elt Ideal) ℓ) (ρ : Dev nD → PrngReg)

/-- The region's [1, 1] result array: its one entry is the loss of the argument array. -/
abbrev blockResult (c : Dev nD) : Buf (Elt Ideal) ((c : Thread nD τ).loc main_v0) := fun _ => Cert.Spec.loss (yarr m c)

/-- The output block is written back once, after the last point, and what is written is the result array's one
    block: the block is the whole [1, 1] array, and a constant array read through any block is that constant. -/
theorem flushed_eq (c : Dev nD) (t : Fin cfg0.N) (hf : (cfg0.win 1).flush t = true) :
    (dats m 0 c).flushed 1 t = ((cfg0.win 1).blk t).view.read (Elt Ideal) (blockResult m c) := by
  have hN : cfg0.N = 8 := N_0
  have h7 : t.val = 7 := by have := (flush0_1 t).mp hf; have := t.isLt; omega
  obtain rfl : t = t0_7 := Fin.ext h7
  show (cfg0.win 1).cut (grid0.coords t0_7) ((dats m 0 c).after 1 t0_7) = _
  rw [after0_1]
  rw [show (outsAt0 m c t0_7.val t0_7.isLt).1 = fun _ => Cert.Spec.loss (yarr m c) from out_eq m c (by rw [hN]; decide)]
  funext y
  rfl

/-- The last point's block covers the [1, 1] array: both coordinates of its one index are 0, and the block starts at
    the origin with extent 1 along both axes. -/
theorem covered (c : Dev nD) (i : ((cfg0.win 1).arr.view.loc (c.tc : Thread nD τ)).2.ty.Idx) :
    ∃ t : Fin cfg0.N, (cfg0.win 1).flush t = true ∧ i ∈ ((cfg0.win 1).blk t).view.set := by
  refine ⟨t0_7, (flush0_1 t0_7).mpr rfl, ?_⟩
  show i ∈ ((View.whole main_v0).slice (win0_1.rect t0_7)).set
  rw [View.set_slice_whole, Rect.mem_set_unit]
  intro a
  have h0 : (i 0 : Nat) < 1 := (i 0).isLt
  have h1 : (i 1 : Nat) < 1 := (i 1).isLt
  have hidx : ∀ a : Fin 2, win0_1.index t0_7 a * win0_1.size a = 0 ∧ win0_1.xsize (grid0.coords t0_7) a = 1 := by
    decide +kernel
  match a with
  | ⟨0, _⟩ =>
    show win0_1.index t0_7 0 * win0_1.size 0 ≤ (i 0 : Nat)
      ∧ (i 0 : Nat) < win0_1.index t0_7 0 * win0_1.size 0 + win0_1.xsize (grid0.coords t0_7) 0
    rw [(hidx 0).1, (hidx 0).2]; omega
  | ⟨1, _⟩ =>
    show win0_1.index t0_7 1 * win0_1.size 1 ≤ (i 1 : Nat)
      ∧ (i 1 : Nat) < win0_1.index t0_7 1 * win0_1.size 1 + win0_1.xsize (grid0.coords t0_7) 1
    rw [(hidx 1).1, (hidx 1).2]; omega

/-- So the region's result array ends holding the loss. -/
theorem final_out (c : Dev nD) : (dats m 0 c).arrAt 1 cfg0.N = blockResult m c :=
  (dats m 0 c).arrAt_eq_of_cover 1 (blockResult m c) (flushed_eq m c) (covered c)

/-- The host line after the region reshapes the [1, 1] array to a scalar: the scalar is the loss. -/
theorem tail_eq (c : Dev nD) :
    Pipeline.afterTail₀ cfgs (dats m) 0 (V0 m) [hostOps1] c main_v1 = fun _ => Cert.Spec.loss (yarr m c) := by
  unfold Pipeline.afterTail₀
  show StableHlo.after hostOps1 _ (Proc.devRef .tc main_v1) = _
  after_results
  funext i
  show shapeCast _ (Pipeline.withArrays (cfgs 0).spec c (V0 m c) (fun w => (dats m 0 c).arrAt w (cfgs 0).N)
    (Proc.devRef .tc main_v0)) shapeCasts_S1x1_S_ i = _
  rw [show Pipeline.withArrays (cfgs 0).spec c (V0 m c) (fun w => (dats m 0 c).arrAt w (cfgs 0).N)
      (Proc.devRef .tc main_v0) = blockResult m c from
    (Pipeline.withArrays_arr spec0 launch0.win.arr_inj c _ _ 1).trans (final_out m c)]
  rfl

/-- The run, read: the program's result is the loss of its argument, and the argument is unchanged. -/
theorem run : θ_run defs (onTc (τ := τ) (main (F := Ideal))) ⟨m, fun _ => 0, ρ⟩ fun r => ∀ c : Dev nD,
      r.2.mem ((c : Thread nD τ).loc main_v1) = (fun _ => Cert.Spec.loss (yarr m c))
      ∧ r.2.mem ((c : Thread nD τ).loc main_arg0) = m ((c : Thread nD τ).loc main_arg0) :=
  (θ_run defs _ _).mono (fun _ h c =>
    ⟨((h c).2 main_v1 (Pipeline.mem_restRefs_of main_v1 rfl (by decide))).trans (tail_eq m c),
      ((h c).1 0).trans (((dats m 0 c).arrAt_in 0 rfl _).trans ((A_eq m c 0).trans (V_main_arg0 m c)))⟩)
    (run_main m ρ)

end Cert.KernelIdeal.KernelValue

end
-- ==== Proof.RefValue.lean ====
/-
  The reference computes the specification. Its program divides every entry by sqrt 16384 = 128, squares, sums each
  column over the 16384 rows, subtracts from one, takes absolute values and sums over the 2048 columns. Dividing by
  128 is multiplying by 1/128, and scaling every entry of a column by 1/128 before squaring and summing scales the
  column's sum of squares by (1/128)² = 1/16384: squares are nonnegative, and over nonnegative extended reals
  multiplication distributes over a finite sum, so no finiteness of the entries is needed.
-/
import proofs.«176509_j25975962206274_1_alg».proof.Proof.Gen.ReferenceIdeal.Read
import proofs.«176509_j25975962206274_1_alg».proof.Proof.Spec

noncomputable section

open scoped BigOperators

namespace Cert.ReferenceIdeal.RefValue

open Cert.ReferenceIdeal Cert.ReferenceIdeal.Gen Idealize.ShloMosaic Idealize.ShloMosaic.ValueIdx
open Cert.ColumnSums

/-- The index the column reduction reads at column `j` and row `k` is (k, j). -/
theorem col_idx (j : Fin 2048) (k : Fin 16384) : Read.idx_main_v4 (ix1 j) k = ix2 k j := by
  funext a; apply Fin.ext
  match a with
  | ⟨0, _⟩ => rfl
  | ⟨1, _⟩ => rfl

/-- Column `j` of the reduced array: the column's sum of squares times 1/16384. -/
theorem colsum_at (Y : (⟨S16384x2048, .f32⟩ : BufTy).Contents (Elt Ideal)) (j : Fin 2048) :
    Read.val_main_v4 (F := Ideal) Y (ix1 j) = Cert.Spec.colSq Y j * ((1 / 16384 : ℝ) : EReal) := by
  rw [Read.val_main_v4_apply, Read.val_main_cst_0_apply]
  simp only [Read.val_main_v3_apply, Read.val_main_v2_apply, Read.val_main_v1_apply, Read.val_main_v0_apply,
    Read.val_main_cst_apply, col_idx]
  simp only [Ideal.ofBits_def, Ideal.hostDivf_def, Ideal.hostUnary_sqrt_def, Ideal.mulf_def, Cert.Consts.ofBits_16384,
    Cert.Consts.sqrt_16384, Cert.Consts.div_128, Ideal.ofBits_zero_f32, zero_add]
  rw [sum_sq_scaled, Cert.Consts.inv128_sq]
  rfl

/-- The reference's result is the loss of its argument. -/
theorem result_eq (Y : (⟨S16384x2048, .f32⟩ : BufTy).Contents (Elt Ideal)) (i : S_.Idx) :
    Read.val_main_v8 (F := Ideal) Y i = Cert.Spec.loss Y := by
  rw [Read.val_main_v8_apply, Read.val_main_cst_2_apply, sum_idx1]
  simp only [Read.val_main_v7_apply, Read.val_main_v6_apply, Read.val_main_v5_apply, Read.val_main_cst_1_apply,
    colsum_at]
  simp only [Ideal.ofBits_def, Ideal.ofBits_zero_f32, zero_add, Ideal.hostAbsf_def, Ideal.absf_def, Ideal.subf_def]
  rfl

end Cert.ReferenceIdeal.RefValue

end
-- ==== Proof.lean ====
/-
  The kernel and its reference compute one number from a [16384, 2048] array Y:

      loss Y = ∑ₖ | 1 − (∑ᵢ Y(i,k)²) / 16384 |      (k over the 2048 columns, i over the 16384 rows),

  the sum over the diagonal of |I − (Y/√n)ᵀ(Y/√n)| with n = 16384 rows, the diagonal entry of column k being the
  mean square of that column.

  The kernel streams Y in 8 row blocks of 2048 rows. It keeps a [1, 2048] row of running column sums of squares
  (zeroed at the first block, each block's column sums of squares added to it), and after the last block multiplies
  the row by 1/16384 = 2^(-14), subtracts from one, takes absolute values and sums over the columns. The reference
  divides every entry by sqrt 16384 = 128, squares, sums each column over all rows, subtracts from one, takes
  absolute values and sums.

  With floats read exactly (extended reals) the two agree on EVERY input, finite or not:
  * dividing by 128 is multiplying by 1/128, and (x·c)·(x·c) = (x·x)·(c·c) in any commutative monoid;
  * squares are nonnegative, and over nonnegative extended reals multiplication distributes over a finite sum, so
    ∑ᵢ (Y(i,k)²)·(1/128)² = (∑ᵢ Y(i,k)²)·(1/16384);
  * summing the rows in 8 consecutive blocks only regroups an addition, which is associative and commutative.
  So the precondition is never opened.

  The three frames: the kernel's two are the generated frame proofs; the reference has no kernel, and its frame is
  its run with the result forgotten. The idealization rewrote nothing, so there is nothing to preserve.
-/
import proofs.«176509_j25975962206274_1_alg».proof.Defs
import proofs.«176509_j25975962206274_1_alg».proof.Proof.Gen.Kernel
import proofs.«176509_j25975962206274_1_alg».proof.Proof.Gen.Kernel.Skeleton
import proofs.«176509_j25975962206274_1_alg».proof.Proof.Gen.Kernel.Launch
import proofs.«176509_j25975962206274_1_alg».proof.Proof.Gen.Kernel.Points
import proofs.«176509_j25975962206274_1_alg».proof.Proof.Gen.Kernel.Frame
import proofs.«176509_j25975962206274_1_alg».proof.Proof.Gen.KernelIdeal
import proofs.«176509_j25975962206274_1_alg».proof.Proof.Gen.KernelIdeal.Skeleton
import proofs.«176509_j25975962206274_1_alg».proof.Proof.Gen.KernelIdeal.Launch
import proofs.«176509_j25975962206274_1_alg».proof.Proof.Gen.KernelIdeal.Points
import proofs.«176509_j25975962206274_1_alg».proof.Proof.Gen.KernelIdeal.Frame
import proofs.«176509_j25975962206274_1_alg».proof.Proof.Gen.ReferenceIdeal
import proofs.«176509_j25975962206274_1_alg».proof.Proof.Gen.Pre_finite_inputs
import proofs.«176509_j25975962206274_1_alg».proof.Proof.Gen.ReferenceIdeal.Run
import proofs.«176509_j25975962206274_1_alg».proof.Proof.Gen.ReferenceIdeal.Read
import proofs.«176509_j25975962206274_1_alg».proof.Proof.KernelValue
import proofs.«176509_j25975962206274_1_alg».proof.Proof.RefValue
import Idealize.ShloMosaic.Adequacy
import Idealize.ShloMosaic.Init

noncomputable section

namespace Cert.Proof

open Idealize.ShloMosaic Idealize.SL.Sem

/-- The word-level kernel runs and leaves its argument unchanged. -/
theorem frame_kernel : Cert.frame_Kernel := fun m ρ _ => Cert.Kernel.Gen.frame m ρ

/-- So does the kernel read exactly. -/
theorem frame_kernelIdeal : Cert.frame_KernelIdeal := fun m ρ _ => Cert.KernelIdeal.Gen.frame m ρ

/-- The reference runs and leaves its argument unchanged: its run, with what it computes forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Read exactly, from memories agreeing on Y, both programs end with the loss of Y as their result. -/
theorem algebraic : Cert.algebraic_KernelIdeal_ReferenceIdeal := by
  intro m ρ m' ρ' _ hagree
  refine ⟨fun c => fun _ => Cert.Spec.loss (Cert.KernelIdeal.Carried.yarr m c),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, hagree c]
  funext i
  exact Cert.ReferenceIdeal.RefValue.result_eq _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
